-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S128x96 : Shape := ⟨2, ![128, 96]⟩
abbrev S40x256 : Shape := ⟨2, ![40, 256]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S40x256 : S_.BroadcastsInDim S40x256 (![] : Fin 0 → Fin S40x256.rank)
  reducesTo_S40x256_S_d0_1 : S40x256.ReducesTo [0, 1] S_

variable [Facts]

def fn_part1 {F : FTy → Type} [FloatOps F] (main_v13 : IVec S_ 1) (main_v16 : IVec S40x256 1) : IVec S_ 1 :=
  let main_c_5 : IVec S_ 1 := constantI S_ 1 1#1
  let main_v17 : IVec S_ 1 := (fun x v => Host.reduce IntOp.andi x v reducesTo_S40x256_S_d0_1 h_S_) main_v16 main_c_5
  let main_v18 : IVec S_ 1 := andi main_v13 main_v17
  main_v18

def fn {F : FTy → Type} [FloatOps F] (main_arg0 : FVec F S50000x96 .f32) (main_arg1 : IVec S800000 32) (main_arg2 : IVec S800000 32) (main_arg3 : FVec F S128x96 .f32) (main_arg4 : FVec F S128x96 .f32) (main_arg5 : FVec F S40x256 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S128x96 .f32 := Host.absf main_arg3
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S128x96 .f32 := Host.absf main_arg4
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S40x256 .f32 := Host.absf main_arg5
  let main_cst_4 : FVec F S_ .f32 := constant S_ .f32 0x7F800000#32
  let main_v15 : FVec F S40x256 .f32 := broadcastInDim S40x256 ![] bcast_S_S40x256 main_cst_4
  let main_v16 : IVec S40x256 1 := cmpf .olt main_v14 main_v15
  fn_part1 (F := F) main_v13 main_v16
-- ==== Kernel.lean ====
abbrev S50000x96 : Shape := ⟨2, ![50000, 96]⟩
abbrev S800000 : Shape := ⟨1, ![800000]⟩
abbrev S128x96 : Shape := ⟨2, ![128, 96]⟩
abbrev S40x256 : Shape := ⟨2, ![40, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x40 : Shape := ⟨2, ![50000, 40]⟩
abbrev S2000x96 : Shape := ⟨2, ![2000, 96]⟩
abbrev S2000x1 : Shape := ⟨2, ![2000, 1]⟩
abbrev S2000x40 : Shape := ⟨2, ![2000, 40]⟩
abbrev S96x128 : Shape := ⟨2, ![96, 128]⟩
abbrev S2000x128 : Shape := ⟨2, ![2000, 128]⟩
abbrev S2000x256 : Shape := ⟨2, ![2000, 256]⟩
abbrev S256x40 : Shape := ⟨2, ![256, 40]⟩

abbrev nBuf : Space → Nat
  | .hbm => 55
  | .vmem => 11
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S128x96, .f32⟩
  | .hbm, ⟨4, _⟩ => ⟨S128x96, .f32⟩
  | .hbm, ⟨5, _⟩ => ⟨S40x256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x96, .f32⟩
  | .hbm, ⟨24, _⟩ => ⟨S50000x96, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S50000x1, .f32⟩
  | .hbm, ⟨39, _⟩ => ⟨S50000x96, .f32⟩
  | .hbm, ⟨40, _⟩ => ⟨S50000x96, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x96, .f32⟩
  | .hbm, ⟨50, _⟩ => ⟨S_, .f32⟩
  | .hbm, ⟨51, _⟩ => ⟨S50000x96, .f32⟩
  | .hbm, ⟨52, _⟩ => ⟨S800000x1, .i32⟩
  | .hbm, ⟨53, _⟩ => ⟨S50000x96, .f32⟩
  | .hbm, ⟨54, _⟩ => ⟨S50000x40, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x1, .f32⟩
  | .local _ .vmem, ⟨5, _⟩ => ⟨S2000x1, .f32⟩
  | .local _ .vmem, ⟨6, _⟩ => ⟨S128x96, .f32⟩
  | .local _ .vmem, ⟨7, _⟩ => ⟨S128x96, .f32⟩
  | .local _ .vmem, ⟨8, _⟩ => ⟨S40x256, .f32⟩
  | .local _ .vmem, ⟨9, _⟩ => ⟨S2000x40, .f32⟩
  | .local _ .vmem, ⟨10, _⟩ => ⟨S2000x40, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  shapeCasts_S2000x96_S2000x96 : S2000x96.ShapeCasts S2000x96
  inb_S128x96_S128x96_0_0 : ∀ a, (![0, 0] : Fin 2 → Nat) a + S128x96.size a ≤ S128x96.size a
  h_S128x96 : 0 < S128x96.numel
  inb_S40x256_S40x256_0_0 : ∀ a, (![0, 0] : Fin 2 → Nat) a + S40x256.size a ≤ S40x256.size a
  h_S40x256 : 0 < S40x256.numel
  transposes_S128x96_p1_0_S96x128 : S128x96.Transposes [1, 0] S96x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  concatenates_S2000x128_S2000x128_S2000x256_d1 : Shape.Concatenates [S2000x128, S2000x128] S2000x256 1
  transposes_S40x256_p1_0_S256x40 : S40x256.Transposes [1, 0] S256x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x128_S2000x128_1_0_0_1_n_n_wf : DotDims.WF S2000x96 S96x128 S2000x128 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x96.size a ≤ S128x96.size a
  hwx0_4 : ∀ i : grid0.Coords, EltTy.bits .f32 = 32 ∨ (Rect.block (s := S128x96) S128x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x256.size a ≤ S40x256.size a
  hwx0_5 : ∀ i : grid0.Coords, EltTy.bits .f32 = 32 ∨ (Rect.block (s := S40x256) S40x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x40.size a ≤ S50000x40.size a
  hwx0_6 : ∀ i : grid0.Coords, EltTy.bits .f32 = 32 ∨ (Rect.block (s := S50000x40) S2000x40.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S40x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S2000x40.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S128x96 : Shape := ⟨2, ![128, 96]⟩
abbrev S40x256 : Shape := ⟨2, ![40, 256]⟩
abbrev S96x128 : Shape := ⟨2, ![96, 128]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S50000x256 : Shape := ⟨2, ![50000, 256]⟩
abbrev S256x40 : Shape := ⟨2, ![256, 40]⟩
abbrev S50000x40 : Shape := ⟨2, ![50000, 40]⟩

abbrev nBuf : Space → Nat
  | .hbm => 67
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S128x96, .f32⟩
  | .hbm, ⟨4, _⟩ => ⟨S128x96, .f32⟩
  | .hbm, ⟨5, _⟩ => ⟨S40x256, .f32⟩
  | .hbm, ⟨6, _⟩ => ⟨S96x128, .f32⟩
  | .hbm, ⟨7, _⟩ => ⟨S50000x128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x96, .f32⟩
  | .hbm, ⟨26, _⟩ => ⟨S50000x96, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x96, .f32⟩
  | .hbm, ⟨36, _⟩ => ⟨S_, .f32⟩
  | .hbm, ⟨37, _⟩ => ⟨S50000x96, .f32⟩
  | .hbm, ⟨38, _⟩ => ⟨S800000x1, .i32⟩
  | .hbm, ⟨39, _⟩ => ⟨S50000x96, .f32⟩
  | .hbm, ⟨40, _⟩ => ⟨S50000x1, .f32⟩
  | .hbm, ⟨41, _⟩ => ⟨S50000x96, .f32⟩
  | .hbm, ⟨42, _⟩ => ⟨S50000x96, .f32⟩
  | .hbm, ⟨43, _⟩ => ⟨S50000x1, .f32⟩
  | .hbm, ⟨44, _⟩ => ⟨S50000x96, .f32⟩
  | .hbm, ⟨45, _⟩ => ⟨S50000x96, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x96, .f32⟩
  | .hbm, ⟨55, _⟩ => ⟨S_, .f32⟩
  | .hbm, ⟨56, _⟩ => ⟨S50000x96, .f32⟩
  | .hbm, ⟨57, _⟩ => ⟨S800000x1, .i32⟩
  | .hbm, ⟨58, _⟩ => ⟨S50000x96, .f32⟩
  | .hbm, ⟨59, _⟩ => ⟨S50000x1, .f32⟩
  | .hbm, ⟨60, _⟩ => ⟨S50000x96, .f32⟩
  | .hbm, ⟨61, _⟩ => ⟨S50000x96, .f32⟩
  | .hbm, ⟨62, _⟩ => ⟨S96x128, .f32⟩
  | .hbm, ⟨63, _⟩ => ⟨S50000x128, .f32⟩
  | .hbm, ⟨64, _⟩ => ⟨S50000x256, .f32⟩
  | .hbm, ⟨65, _⟩ => ⟨S256x40, .f32⟩
  | .hbm, ⟨66, _⟩ => ⟨S50000x40, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  transposes_S128x96_S96x128_1_0 : S128x96.Transposes [1, 0] S96x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  concatenates_S50000x128_S50000x128_S50000x256_d1 : Shape.Concatenates [S50000x128, S50000x128] S50000x256 1
  transposes_S40x256_S256x40_1_0 : S40x256.Transposes [1, 0] S256x40
  dot_S50000x96_S96x128_S50000x128_1_0_0_1_n_n_wf : DotDims.WF S50000x96 S96x128 S50000x128 [1] [0] [0] [1] [] []
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x256_S256x40_S50000x40_1_0_0_1_n_n_wf : DotDims.WF S50000x256 S256x40 S50000x40 [1] [0] [0] [1] [] []

variable [Facts₀]

def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Algebra.lean ====
/- Two facts on the extended reals that the propagation's normalisation rests on.
   (1) A power of a positive base to a negative real exponent is a nonnegative number below +∞:
       a real base gives a real power, the base +∞ gives 0.
   (2) A factor that is nonnegative and not +∞ distributes over any finite sum of extended reals
       (the sum may hold +∞ and -∞ together: multiplying by such a factor keeps every sign and
       every infinity in place), so it can be moved from a sum of products into each product. -/
import Idealize.ShloMosaic.PureOps.Ideal
import Mathlib.Data.EReal.Operations
import Mathlib.Analysis.SpecialFunctions.Pow.Real

noncomputable section

namespace Cert.Algebra

open Idealize.ShloMosaic

/-- A positive extended real raised to a negative real exponent is nonnegative and finite from above. -/
theorem pow_pos_negExp (x : EReal) (hx : 0 < x) (y : ℝ) (hy : y < 0) :
    0 ≤ Ideal.pow x (y : EReal) ∧ Ideal.pow x (y : EReal) ≠ ⊤ := by
  induction x using EReal.rec with
  | bot => exact absurd hx (by simp)
  | top =>
    have h1 : ¬ (0 : EReal) < (y : EReal) := by
      rw [not_lt]; exact_mod_cast hy.le
    have h2 : ¬ ((y : EReal) = 0) := by
      intro h; have : y = 0 := by exact_mod_cast h
      exact (ne_of_lt hy) this
    show 0 ≤ (if 0 < (y : EReal) then (⊤ : EReal) else if (y : EReal) = 0 then 1 else 0) ∧
      (if 0 < (y : EReal) then (⊤ : EReal) else if (y : EReal) = 0 then 1 else 0) ≠ ⊤
    rw [if_neg h1, if_neg h2]
    exact ⟨le_refl _, by simp⟩
  | coe r =>
    have hr : 0 < r := by exact_mod_cast hx
    show 0 ≤ ((Real.rpow r y : ℝ) : EReal) ∧ ((Real.rpow r y : ℝ) : EReal) ≠ ⊤
    exact ⟨by exact_mod_cast Real.rpow_nonneg hr.le y, EReal.coe_ne_top _⟩

/-- A nonnegative factor below +∞ distributes over a finite sum. -/
theorem sum_mul_of_nonneg_ne_top {ι : Type*} (s : Finset ι) (f : ι → EReal) {n : EReal}
    (h0 : 0 ≤ n) (ht : n ≠ ⊤) : (∑ k ∈ s, f k) * n = ∑ k ∈ s, f k * n := by
  classical
  induction s using Finset.induction_on with
  | empty => simp
  | insert a s ha ih =>
    rw [Finset.sum_insert ha, Finset.sum_insert ha, EReal.right_distrib_of_nonneg_of_ne_top h0 ht, ih]

/-- The row scale of a matrix product: scaling the product's entry by a nonnegative factor below +∞ is
    the product of the scaled row. -/
theorem sum_mul_scale {ι : Type*} (s : Finset ι) (a w : ι → EReal) {n : EReal}
    (h0 : 0 ≤ n) (ht : n ≠ ⊤) : (∑ k ∈ s, a k * w k) * n = ∑ k ∈ s, (a k * n) * w k := by
  rw [sum_mul_of_nonneg_ne_top s _ h0 ht]
  exact Finset.sum_congr rfl fun k _ => mul_right_comm _ _ _

end Cert.Algebra

end
-- ==== Proof.Spec.lean ====
/- One node's output row, from that node's feature row `a`, its twice-propagated row `b`, its
   normalisation factor `n` and the three weight matrices.
   The 256 hidden features of a node are the 128 entries of `a · W_linᵀ` followed by the 128 entries of the
   propagated branch; the output is their product with `W_projᵀ`.
   The two programs place the factor `n` differently in the propagated branch:
     * after the product:  `(∑ l, b l · W_sgc[k, l]) · n`      (`hiddenRow`),
     * before the product: `∑ l, (b l · n) · W_sgc[k, l]`      (`hiddenRowRef`).
   They agree when `n` is nonnegative and not +∞ (`Cert.Algebra.sum_mul_scale`), with no condition on `b` or
   on the weights. -/
import proofs.«148928_j30683246363241_1_alg».proof.Proof.Algebra
import Idealize.ShloMosaic.Lib.ValueIdx

noncomputable section

namespace Cert.Spec

open Idealize.ShloMosaic Idealize.ShloMosaic.ValueIdx

abbrev W128x96 := (⟨2, ![128, 96]⟩ : Shape).Idx → EReal
abbrev W40x256 := (⟨2, ![40, 256]⟩ : Shape).Idx → EReal

/-- Hidden feature `k` of a node, the normalisation applied after the propagated branch's product. -/
def hiddenRow (a b : Fin 96 → EReal) (n : EReal) (wlin wsgc : W128x96) (k : Fin 256) : EReal :=
  if h : k.val < 128 then ∑ l : Fin 96, a l * wlin (ix2 ⟨k.val, h⟩ l)
  else (∑ l : Fin 96, b l * wsgc (ix2 ⟨k.val - 128, by have := k.isLt; omega⟩ l)) * n

/-- Output `q` of a node over `hiddenRow`. -/
def outRow (a b : Fin 96 → EReal) (n : EReal) (wlin wsgc : W128x96) (wproj : W40x256) (q : Fin 40) : EReal :=
  ∑ k : Fin 256, hiddenRow a b n wlin wsgc k * wproj (ix2 q k)

/-- Hidden feature `k` of a node, the normalisation applied to the propagated row before the product. -/
def hiddenRowRef (a b : Fin 96 → EReal) (n : EReal) (wlin wsgc : W128x96) (k : Fin 256) : EReal :=
  if h : k.val < 128 then ∑ l : Fin 96, a l * wlin (ix2 ⟨k.val, h⟩ l)
  else ∑ l : Fin 96, (b l * n) * wsgc (ix2 ⟨k.val - 128, by have := k.isLt; omega⟩ l)

/-- Output `q` of a node over `hiddenRowRef`. -/
def outRowRef (a b : Fin 96 → EReal) (n : EReal) (wlin wsgc : W128x96) (wproj : W40x256) (q : Fin 40) : EReal :=
  ∑ k : Fin 256, hiddenRowRef a b n wlin wsgc k * wproj (ix2 q k)

/-- The two placements of the normalisation give one hidden feature. -/
theorem hiddenRowRef_eq (a b : Fin 96 → EReal) {n : EReal} (h0 : 0 ≤ n) (ht : n ≠ ⊤) (wlin wsgc : W128x96)
    (k : Fin 256) : hiddenRowRef a b n wlin wsgc k = hiddenRow a b n wlin wsgc k := by
  unfold hiddenRowRef hiddenRow
  split
  · rfl
  · exact (Cert.Algebra.sum_mul_scale Finset.univ b _ h0 ht).symm

/-- … and so one output row. -/
theorem outRowRef_eq (a b : Fin 96 → EReal) {n : EReal} (h0 : 0 ≤ n) (ht : n ≠ ⊤) (wlin wsgc : W128x96)
    (wproj : W40x256) (q : Fin 40) : outRowRef a b n wlin wsgc wproj q = outRow a b n wlin wsgc wproj q := by
  unfold outRowRef outRow
  exact Finset.sum_congr rfl fun k _ => by rw [hiddenRowRef_eq a b h0 ht]

/-- The whole [50000, 40] result: node `i`'s output row from row `i` of the features, row `i` of the
    twice-propagated features and the node's normalisation factor. -/
def outArr (feat g2 : (⟨2, ![50000, 96]⟩ : Shape).Idx → EReal) (nrm : Fin 50000 → EReal) (wlin wsgc : W128x96)
    (wproj : W40x256) : (⟨2, ![50000, 40]⟩ : Shape).Idx → EReal :=
  fun i => outRow (fun l => feat (ix2 ⟨(i 0).val, idx2_lt0 i⟩ l)) (fun l => g2 (ix2 ⟨(i 0).val, idx2_lt0 i⟩ l))
    (nrm ⟨(i 0).val, idx2_lt0 i⟩) wlin wsgc wproj ⟨(i 1).val, idx2_lt1 i⟩

theorem outArr_ix2 (feat g2 : (⟨2, ![50000, 96]⟩ : Shape).Idx → EReal) (nrm : Fin 50000 → EReal) (wlin wsgc : W128x96)
    (wproj : W40x256) (r : Fin 50000) (q : Fin 40) :
    outArr feat g2 nrm wlin wsgc wproj (ix2 r q)
      = outRow (fun l => feat (ix2 r l)) (fun l => g2 (ix2 r l)) (nrm r) wlin wsgc wproj q := rfl

end Cert.Spec

end
-- ==== Proof.LibLayout.lean ====
/- Layout operations of two-axis arrays read at an index `ix2 p k`:
   a concatenation of two arrays along the column axis (the entry comes from the first piece when the
   column is below the first piece's width, from the second piece at the column less that width otherwise),
   and the broadcast of a one-column array along the columns (every column reads the one column). -/
import Idealize.ShloMosaic.Lib.Pipeline.Value
import Idealize.ShloMosaic.Lib.ValueIdx

noncomputable section

namespace Cert.LibLayout

open Idealize.ShloMosaic Idealize.ShloMosaic.ValueIdx

variable {α : Type}

/-- Two pieces joined along the columns, read in the first piece. -/
theorem concat_cols_left {R A B C : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, C]⟩ 1) (p : Fin R) (k : Fin C) (hk : k.val < A) :
    concatenate ⟨2, ![R, C]⟩ 1 [⟨⟨2, ![R, A]⟩, u⟩, ⟨⟨2, ![R, B]⟩, v⟩] h (ix2 p k) = u (ix2 p ⟨k.val, hk⟩) :=
  concatenate_pair_apply_left 1 u v h (ix2 p k) rfl (ix2 p ⟨k.val, hk⟩) fun b => match b with
    | ⟨0, _⟩ => rfl
    | ⟨1, _⟩ => rfl

/-- Two pieces joined along the columns, read in the second piece. -/
theorem concat_cols_right {R A B C : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, C]⟩ 1) (p : Fin R) (k : Fin C) (hk : A ≤ k.val)
    (hk' : k.val - A < B) :
    concatenate ⟨2, ![R, C]⟩ 1 [⟨⟨2, ![R, A]⟩, u⟩, ⟨⟨2, ![R, B]⟩, v⟩] h (ix2 p k) = v (ix2 p ⟨k.val - A, hk'⟩) :=
  concatenate_pair_apply_right 1 u v h (ix2 p k) rfl rfl (ix2 p ⟨k.val - A, hk'⟩)
    (fun b hb => match b, hb with
      | ⟨0, _⟩, _ => rfl
      | ⟨1, _⟩, hb => absurd rfl hb)
    (by show k.val - A + A = k.val; omega)

/-- A one-column array broadcast along the columns reads its one column. -/
theorem bcast_col_apply {R C : Nat} (x : (⟨2, ![R, 1]⟩ : Shape).Idx → α)
    (h : (⟨2, ![R, 1]⟩ : Shape).Broadcasts ⟨2, ![R, C]⟩) (p : Fin R) (c : Fin C) (hR : R ≠ 1) :
    broadcastTo ⟨2, ![R, C]⟩ x h (ix2 p c) = x (ix2 p 0) :=
  broadcastTo_apply x h (ix2 p c) (ix2 p 0) fun a => match a with
    | ⟨0, _⟩ => (if_neg hR).symm
    | ⟨1, _⟩ => (if_pos rfl).symm

/-- A one-column array broadcast (host form) along the columns reads its one column. -/
theorem bcastInDim_col_apply {R C : Nat} (x : (⟨2, ![R, 1]⟩ : Shape).Idx → α)
    (h : (⟨2, ![R, 1]⟩ : Shape).BroadcastsInDim ⟨2, ![R, C]⟩ ![0, 1]) (r : Fin R) (l : Fin C) (hR : R ≠ 1) :
    broadcastInDim ⟨2, ![R, C]⟩ ![0, 1] h x (ix2 r l) = x (ix2 r 0) :=
  broadcastInDim_apply _ h x (ix2 r l) (ix2 r 0) fun a => match a with
    | ⟨0, _⟩ => (if_neg hR).symm
    | ⟨1, _⟩ => (if_pos rfl).symm

/-- A vector made a one-column array (host form) reads the vector's entry. -/
theorem bcastInDim_vec_col_apply {R : Nat} (x : (⟨1, ![R]⟩ : Shape).Idx → α)
    (h : (⟨1, ![R]⟩ : Shape).BroadcastsInDim ⟨2, ![R, 1]⟩ ![0]) (r : Fin R) (hR : R ≠ 1) :
    broadcastInDim ⟨2, ![R, 1]⟩ ![0] h x (ix2 r 0) = x (ix1 r) :=
  broadcastInDim_apply _ h x (ix2 r 0) (ix1 r) fun a => match a with
    | ⟨0, _⟩ => (if_neg hR).symm

end Cert.LibLayout

end
-- ==== Proof.KernelPay.lean ====
/- The kernel body's one stored value, read at a row `p` and a column `q` of its [2000, 40] block:
   the three matrix products into zero accumulators are plain sums over the contracted axis, the
   transposes of the weights read the weights at swapped coordinates, the narrowing to bf16 is the
   identity on the extended reals, the [2000,1] normalisation column is read at its one column, and the
   joined [2000,256] hidden block reads its first or second half. Together: the entry is
   `Cert.Spec.outRow` of row `p` of the feature block, row `p` of the propagated block and entry `p`
   of the normalisation block. -/
import proofs.«148928_j30683246363241_1_alg».proof.Proof.Gen.KernelIdeal.Skeleton
import proofs.«148928_j30683246363241_1_alg».proof.Proof.Spec
import proofs.«148928_j30683246363241_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-! ## The operand indices of the two contractions, axis by axis -/

theorem lhsA_0 (i : S2000x128.Idx) (q : dot_S2000x96_S96x128_S2000x128_1_0_0_1_n_n.contr.Idx) :
    (dot_S2000x96_S96x128_S2000x128_1_0_0_1_n_n.lhsIdx i q 0).val = (i 0).val := by
  unfold DotDims.lhsIdx
  rw [dif_neg (show ¬(0 : Fin S2000x96.rank) ∈ dot_S2000x96_S96x128_S2000x128_1_0_0_1_n_n.lhsBatch by decide), dif_pos (show (0 : Fin S2000x96.rank) ∈ dot_S2000x96_S96x128_S2000x128_1_0_0_1_n_n.lhsNonContracting by decide)]
  rfl
theorem lhsA_1 (i : S2000x128.Idx) (q : dot_S2000x96_S96x128_S2000x128_1_0_0_1_n_n.contr.Idx) :
    (dot_S2000x96_S96x128_S2000x128_1_0_0_1_n_n.lhsIdx i q 1).val = (q ⟨0, by decide⟩).val :=
  dot_S2000x96_S96x128_S2000x128_1_0_0_1_n_n.lhsIdx_val_of_single rfl i q
theorem rhsA_0 (i : S2000x128.Idx) (q : dot_S2000x96_S96x128_S2000x128_1_0_0_1_n_n.contr.Idx) :
    (dot_S2000x96_S96x128_S2000x128_1_0_0_1_n_n.rhsIdx i q 0).val = (q ⟨0, by decide⟩).val :=
  dot_S2000x96_S96x128_S2000x128_1_0_0_1_n_n.rhsIdx_val_of_single rfl i q
theorem rhsA_1 (i : S2000x128.Idx) (q : dot_S2000x96_S96x128_S2000x128_1_0_0_1_n_n.contr.Idx) :
    (dot_S2000x96_S96x128_S2000x128_1_0_0_1_n_n.rhsIdx i q 1).val = (i 1).val := by
  unfold DotDims.rhsIdx
  rw [dif_neg (show ¬(1 : Fin S96x128.rank) ∈ dot_S2000x96_S96x128_S2000x128_1_0_0_1_n_n.rhsBatch by decide), dif_pos (show (1 : Fin S96x128.rank) ∈ dot_S2000x96_S96x128_S2000x128_1_0_0_1_n_n.rhsNonContracting by decide)]
  rfl

theorem lhsB_0 (i : S2000x40.Idx) (q : dot_S2000x256_S256x40_S2000x40_1_0_0_1_n_n.contr.Idx) :
    (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
theorem lhsB_1 (i : S2000x40.Idx) (q : dot_S2000x256_S256x40_S2000x40_1_0_0_1_n_n.contr.Idx) :
    (dot_S2000x256_S256x40_S2000x40_1_0_0_1_n_n.lhsIdx i q 1).val = (q ⟨0, by decide⟩).val :=
  dot_S2000x256_S256x40_S2000x40_1_0_0_1_n_n.lhsIdx_val_of_single rfl i q
theorem rhsB_0 (i : S2000x40.Idx) (q : dot_S2000x256_S256x40_S2000x40_1_0_0_1_n_n.contr.Idx) :
    (dot_S2000x256_S256x40_S2000x40_1_0_0_1_n_n.rhsIdx i q 0).val = (q ⟨0, by decide⟩).val :=
  dot_S2000x256_S256x40_S2000x40_1_0_0_1_n_n.rhsIdx_val_of_single rfl i q
theorem rhsB_1 (i : S2000x40.Idx) (q : dot_S2000x256_S256x40_S2000x40_1_0_0_1_n_n.contr.Idx) :
    (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-! ## The two matrix products at an entry -/

/-- A [2000,96] × [96,128] product into the zero accumulator, at row `p` and column `q`: the sum over the 96 contracted positions. -/
theorem matmulA_apply {φ₁ φ₂ : FTy} (l : FVec Ideal S2000x96 φ₁) (r : FVec Ideal S96x128 φ₂) (p : Fin 2000) (q : Fin 128) :
    matmul dot_S2000x96_S96x128_S2000x128_1_0_0_1_n_n none l r (constant S2000x128 .f32 0x00000000#32) (ix2 p q)
      = ∑ k : Fin 96, l (ix2 p k) * r (ix2 k q) := by
  refine (Ideal.matmul_constant_zero_apply dot_S2000x96_S96x128_S2000x128_1_0_0_1_n_n none l r (ix2 p q)).trans ?_
  rw [← Equiv.sum_comp (contrEquiv1 dot_S2000x96_S96x128_S2000x128_1_0_0_1_n_n 96 rfl rfl).symm]
  refine Finset.sum_congr rfl fun k _ => ?_
  have hk := contrEquiv1_symm_val dot_S2000x96_S96x128_S2000x128_1_0_0_1_n_n 96 rfl rfl k
  have el : dot_S2000x96_S96x128_S2000x128_1_0_0_1_n_n.lhsIdx (ix2 p q) ((contrEquiv1 dot_S2000x96_S96x128_S2000x128_1_0_0_1_n_n 96 rfl rfl).symm k) = ix2 p k := funext fun a => Fin.ext (by
    match a with
    | ⟨0, _⟩ => exact lhsA_0 _ _
    | ⟨1, _⟩ => exact (lhsA_1 _ _).trans hk)
  have er : dot_S2000x96_S96x128_S2000x128_1_0_0_1_n_n.rhsIdx (ix2 p q) ((contrEquiv1 dot_S2000x96_S96x128_S2000x128_1_0_0_1_n_n 96 rfl rfl).symm k) = ix2 k q := funext fun a => Fin.ext (by
    match a with
    | ⟨0, _⟩ => exact (rhsA_0 _ _).trans hk
    | ⟨1, _⟩ => exact rhsA_1 _ _)
  rw [el, er]

/-- A [2000,256] × [256,40] product into the zero accumulator, at row `p` and column `q`: the sum over the 256 contracted positions. -/
theorem matmulB_apply {φ₁ φ₂ : FTy} (l : FVec Ideal S2000x256 φ₁) (r : FVec Ideal S256x40 φ₂) (p : Fin 2000) (q : Fin 40) :
    matmul dot_S2000x256_S256x40_S2000x40_1_0_0_1_n_n none l r (constant S2000x40 .f32 0x00000000#32) (ix2 p q)
      = ∑ k : Fin 256, l (ix2 p k) * r (ix2 k q) := by
  refine (Ideal.matmul_constant_zero_apply dot_S2000x256_S256x40_S2000x40_1_0_0_1_n_n none l r (ix2 p q)).trans ?_
  rw [← Equiv.sum_comp (contrEquiv1 dot_S2000x256_S256x40_S2000x40_1_0_0_1_n_n 256 rfl rfl).symm]
  refine Finset.sum_congr rfl fun k _ => ?_
  have hk := contrEquiv1_symm_val dot_S2000x256_S256x40_S2000x40_1_0_0_1_n_n 256 rfl rfl k
  have el : dot_S2000x256_S256x40_S2000x40_1_0_0_1_n_n.lhsIdx (ix2 p q) ((contrEquiv1 dot_S2000x256_S256x40_S2000x40_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x40_S2000x40_1_0_0_1_n_n.rhsIdx (ix2 p q) ((contrEquiv1 dot_S2000x256_S256x40_S2000x40_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## The transposed weights -/

/-- A [128,96] weight matrix transposed and narrowed, read at `(l, k)`, is the matrix at `(k, l)`. -/
theorem wT_apply (w : Vec Ideal S128x96 .f32) (h1 : FTy.bits .bf16 < FTy.bits .f32) (h2 : S128x96.Transposes [1, 0] S96x128)
    (l : Fin 96) (k : Fin 128) :
    (transpose S96x128 [1, 0] (truncf .bf16 w h1) h2 : FVec Ideal S96x128 .bf16) (ix2 l k) = w (ix2 k l) :=
  transpose_ix2_apply _ h2 l k

/-- The [40,256] projection matrix transposed and narrowed, read at `(k, q)`, is the matrix at `(q, k)`. -/
theorem wprojT_apply (w : Vec Ideal S40x256 .f32) (h1 : FTy.bits .bf16 < FTy.bits .f32) (h2 : S40x256.Transposes [1, 0] S256x40)
    (k : Fin 256) (q : Fin 40) :
    (transpose S256x40 [1, 0] (truncf .bf16 w h1) h2 : FVec Ideal S256x40 .bf16) (ix2 k q) = w (ix2 q k) :=
  transpose_ix2_apply _ h2 k q

/-! ## The stored value at an entry -/

/-- The body's stored value at row `p`, column `q` is the node's output row of the specification. -/
theorem pay_apply (x0 x1 : Vec Ideal S2000x96 .f32) (x3 x4 : Vec Ideal S128x96 .f32) (x5 : Vec Ideal S40x256 .f32)
    (x2 : Vec Ideal S2000x1 .f32) (p : Fin 2000) (q : Fin 40) :
    k0_pay1 x0 x1 x3 x4 x5 x2 (ix2 p q)
      = Cert.Spec.outRow (fun l => x0 (ix2 p l)) (fun l => x1 (ix2 p l)) (x2 (ix2 p 0)) x3 x4 x5 q := by
  unfold k0_pay1 Cert.Spec.outRow
  rw [matmulB_apply]
  refine Finset.sum_congr rfl fun k _ => ?_
  rw [wprojT_apply]
  refine congrArg (· * x5 (ix2 q k)) ?_
  rw [truncf_apply]
  unfold Cert.Spec.hiddenRow
  by_cases hk : k.val < 128
  · rw [dif_pos hk, Cert.LibLayout.concat_cols_left _ _ _ p k hk, matmulA_apply]
    refine Finset.sum_congr rfl fun l _ => ?_
    rw [wT_apply, truncf_apply]
  · have hk2 : k.val - 128 < 128 := by have := k.isLt; omega
    rw [dif_neg hk, Cert.LibLayout.concat_cols_right _ _ _ p k (Nat.le_of_not_lt hk) hk2, mulf_apply, matmulA_apply,
      Cert.LibLayout.bcast_col_apply _ _ p _ (by decide), shapeCast_self, shapeCast_self]
    refine congrArg (· * x2 (ix2 p 0)) ?_
    refine Finset.sum_congr rfl fun l _ => ?_
    rw [wT_apply, truncf_apply]

end Cert.KernelIdeal.Pay

end
-- ==== Proof.KernelValue.lean ====
/- The kernel's result array as one function of the arrays the region finds.
   The grid has 25 points; point `t` reads rows `2000·t … 2000·t + 1999` of the features, of the propagated
   features and of the normalisation column, the three weight matrices whole, and writes back rows
   `2000·t … 2000·t + 1999` of the result. Entry `(p, q)` of what it writes is the specification's output row of
   node `2000·t + p` at column `q` (`Pay.pay_apply`); the 25 row blocks cover the result array. -/
import proofs.«148928_j30683246363241_1_alg».proof.Proof.Gen.KernelIdeal.Value
import proofs.«148928_j30683246363241_1_alg».proof.Proof.KernelPay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The block indices of the seven windows at every grid point: the row-blocked windows move with the point, the
    weights stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := lt_of_lt_of_eq t.isLt N_0

/-- The result array: the specification's output over the arrays as the region finds them. -/
abbrev Gk (c : Dev nD) : S50000x40.Idx → EReal :=
  Cert.Spec.outArr (V m c main_arg0) (V m c main_v34) (fun r => (V m c main_v9 : S50000x1.Idx → EReal) (ix2 r 0))
    (V m c main_arg4) (V m c main_arg3) (V m c main_arg5)

/-! ## Each window's block at a point, as entries of the array it is read from -/

theorem read0 (t : Fin cfg0.N) (A : S50000x96.Idx → EReal) (p : Fin 2000) (l : Fin 96) (r : Fin 50000) (hr : r.val = 2000 * t.val + p.val) :
    (((cfg0.win 0).blk t).view.read (Elt Ideal) A : Vec Ideal S2000x96 .f32) (ix2 p l) = A (ix2 r l) := by
  obtain ⟨e0, e1, -⟩ := idx_facts t
  rw [View.read_apply]
  refine congrArg A (funext fun a => Fin.ext ?_)
  match a with
  | ⟨0, _⟩ => show win0_0.index t 0 * 2000 + 1 * p.val = r.val; rw [e0, hr]; omega
  | ⟨1, _⟩ => show win0_0.index t 1 * 96 + 1 * l.val = l.val; rw [e1]; omega

theorem read1 (t : Fin cfg0.N) (A : S50000x96.Idx → EReal) (p : Fin 2000) (l : Fin 96) (r : Fin 50000) (hr : r.val = 2000 * t.val + p.val) :
    (((cfg0.win 1).blk t).view.read (Elt Ideal) A : Vec Ideal S2000x96 .f32) (ix2 p l) = A (ix2 r l) := by
  obtain ⟨-, -, e0, e1, -⟩ := idx_facts t
  rw [View.read_apply]
  refine congrArg A (funext fun a => Fin.ext ?_)
  match a with
  | ⟨0, _⟩ => show win0_1.index t 0 * 2000 + 1 * p.val = r.val; rw [e0, hr]; omega
  | ⟨1, _⟩ => show win0_1.index t 1 * 96 + 1 * l.val = l.val; rw [e1]; omega

theorem read2 (t : Fin cfg0.N) (A : S50000x1.Idx → EReal) (p : Fin 2000) (r : Fin 50000) (hr : r.val = 2000 * t.val + p.val) :
    (((cfg0.win 2).blk t).view.read (Elt Ideal) A : Vec Ideal S2000x1 .f32) (ix2 p 0) = A (ix2 r 0) := by
  obtain ⟨-, -, -, -, e0, e1, -⟩ := idx_facts t
  rw [View.read_apply]
  refine congrArg A (funext fun a => Fin.ext ?_)
  match a with
  | ⟨0, _⟩ => show win0_2.index t 0 * 2000 + 1 * p.val = r.val; rw [e0, hr]; omega
  | ⟨1, _⟩ => show win0_2.index t 1 * 1 + 1 * 0 = 0; rw [e1]

theorem read3 (t : Fin cfg0.N) (A : S128x96.Idx → EReal) (x : S128x96.Idx) :
    (((cfg0.win 3).blk t).view.read (Elt Ideal) A : Vec Ideal S128x96 .f32) x = A x := by
  obtain ⟨-, -, -, -, -, -, e0, e1, -⟩ := idx_facts t
  rw [View.read_apply]
  refine congrArg A (funext fun a => Fin.ext ?_)
  match a with
  | ⟨0, _⟩ => show win0_3.index t 0 * 128 + 1 * (x 0).val = (x 0).val; rw [e0]; omega
  | ⟨1, _⟩ => show win0_3.index t 1 * 96 + 1 * (x 1).val = (x 1).val; rw [e1]; omega

theorem read4 (t : Fin cfg0.N) (A : S128x96.Idx → EReal) (x : S128x96.Idx) :
    (((cfg0.win 4).blk t).view.read (Elt Ideal) A : Vec Ideal S128x96 .f32) x = A x := by
  obtain ⟨-, -, -, -, -, -, -, -, e0, e1, -⟩ := idx_facts t
  rw [View.read_apply]
  refine congrArg A (funext fun a => Fin.ext ?_)
  match a with
  | ⟨0, _⟩ => show win0_4.index t 0 * 128 + 1 * (x 0).val = (x 0).val; rw [e0]; omega
  | ⟨1, _⟩ => show win0_4.index t 1 * 96 + 1 * (x 1).val = (x 1).val; rw [e1]; omega

theorem read5 (t : Fin cfg0.N) (A : S40x256.Idx → EReal) (x : S40x256.Idx) :
    (((cfg0.win 5).blk t).view.read (Elt Ideal) A : Vec Ideal S40x256 .f32) x = A x := by
  obtain ⟨-, -, -, -, -, -, -, -, -, -, e0, e1, -⟩ := idx_facts t
  rw [View.read_apply]
  refine congrArg A (funext fun a => Fin.ext ?_)
  match a with
  | ⟨0, _⟩ => show win0_5.index t 0 * 40 + 1 * (x 0).val = (x 0).val; rw [e0]; omega
  | ⟨1, _⟩ => show win0_5.index t 1 * 256 + 1 * (x 1).val = (x 1).val; rw [e1]; omega

/-- Entry `(p, q)` of the result's block at point `t` is entry `(2000·t + p, q)` of the result array. -/
theorem emb6_apply (t : Fin cfg0.N) (p : Fin 2000) (q : Fin 40) (r : Fin 50000) (hr : r.val = 2000 * t.val + p.val) :
    (((cfg0.win 6).blk t).view.emb (ix2 p q) : S50000x40.Idx) = ix2 r q := by
  obtain ⟨-, -, -, -, -, -, -, -, -, -, -, -, e0, e1⟩ := idx_facts t
  funext a
  apply Fin.ext
  match a with
  | ⟨0, _⟩ => show win0_6.index t 0 * 2000 + 1 * p.val = r.val; rw [e0, hr]; omega
  | ⟨1, _⟩ => show win0_6.index t 1 * 40 + 1 * q.val = q.val; rw [e1]; omega

/-! ## What a point writes back, the cover, the run -/

/-- What point `t` writes back is block `t` of `Gk`. -/
theorem flushed_eq (c : Dev nD) (t : Fin cfg0.N) :
    (dats m 0 c).flushed 6 t = ((cfg0.win 6).blk t).view.read (Elt Ideal) (Gk m c) := by
  rw [Value.flushed6]
  unfold out0_6
  rw [View.canon_unit_zero hz]
  simp only [View.ld_unit_zero (S := S2000x96) hz, View.ld_unit_zero (S := S128x96) hz, View.ld_unit_zero (S := S40x256) hz,
    View.ld_unit_zero (S := S2000x1) hz]
  funext j
  obtain ⟨p, q, rfl⟩ : ∃ (p : Fin 2000) (q : Fin 40), j = ix2 p q := ⟨j 0, j 1, eq_ix2 j⟩
  have ht := t_lt t
  have hrlt : 2000 * t.val + p.val < 50000 := by have := p.isLt; omega
  rw [View.read_apply, emb6_apply t p q ⟨2000 * t.val + p.val, hrlt⟩ rfl]
  show k0_pay1 (iblk m c 0 t) (iblk m c 1 t) (iblk m c 3 t) (iblk m c 4 t) (iblk m c 5 t) (iblk m c 2 t) (ix2 p q) = _
  refine (Pay.pay_apply (iblk m c 0 t) (iblk m c 1 t) (iblk m c 3 t) (iblk m c 4 t) (iblk m c 5 t) (iblk m c 2 t) p q).trans ?_
  have ha : (fun l : Fin 96 => (iblk m c 0 t : Vec Ideal S2000x96 .f32) (ix2 p l))
      = fun l => (V m c main_arg0 : S50000x96.Idx → EReal) (ix2 ⟨2000 * t.val + p.val, hrlt⟩ l) :=
    funext fun l => read0 t (V m c main_arg0) p l ⟨2000 * t.val + p.val, hrlt⟩ rfl
  have hb : (fun l : Fin 96 => (iblk m c 1 t : Vec Ideal S2000x96 .f32) (ix2 p l))
      = fun l => (V m c main_v34 : S50000x96.Idx → EReal) (ix2 ⟨2000 * t.val + p.val, hrlt⟩ l) :=
    funext fun l => read1 t (V m c main_v34) p l ⟨2000 * t.val + p.val, hrlt⟩ rfl
  have hn : (iblk m c 2 t : Vec Ideal S2000x1 .f32) (ix2 p 0)
      = (V m c main_v9 : S50000x1.Idx → EReal) (ix2 ⟨2000 * t.val + p.val, hrlt⟩ 0) :=
    read2 t (V m c main_v9) p ⟨2000 * t.val + p.val, hrlt⟩ rfl
  have h3 : (iblk m c 3 t : Vec Ideal S128x96 .f32) = (V m c main_arg4 : S128x96.Idx → EReal) :=
    funext fun x => read3 t (V m c main_arg4) x
  have h4 : (iblk m c 4 t : Vec Ideal S128x96 .f32) = (V m c main_arg3 : S128x96.Idx → EReal) :=
    funext fun x => read4 t (V m c main_arg3) x
  have h5 : (iblk m c 5 t : Vec Ideal S40x256 .f32) = (V m c main_arg5 : S40x256.Idx → EReal) :=
    funext fun x => read5 t (V m c main_arg5) x
  rw [ha, hb, hn, h3, h4, h5]
  rfl

/-- An index of the result array is in point `t`'s block iff each coordinate is in the block's range. -/
theorem mem_blk6 (t : Fin cfg0.N) (i : S50000x40.Idx) :
    i ∈ ((cfg0.win 6).blk t).view.set ↔ ∀ a : Fin 2, win0_6.index t a * S2000x40.size a ≤ (i a).val ∧ (i a).val < win0_6.index t a * S2000x40.size a + S2000x40.size a := by
  show i ∈ ((View.whole main_v35).slice (win0_6.rect t)).set ↔ _
  rw [View.set_slice_whole, Rect.mem_set_unit]
  exact Iff.rfl

/-- Row `r` of the result lies in the block of point `r / 2000`. -/
theorem cover6 (i : S50000x40.Idx) : ∃ t : Fin cfg0.N, (cfg0.win 6).flush t = true ∧ i ∈ ((cfg0.win 6).blk t).view.set := by
  have hi0 : (i 0).val < 50000 := (i 0).isLt
  have hi1 : (i 1).val < 40 := (i 1).isLt
  have hN : cfg0.N = 25 := N_0
  have hlt : (i 0).val / 2000 < cfg0.N := by rw [hN]; omega
  obtain ⟨-, -, -, -, -, -, -, -, -, -, -, -, e0, e1⟩ := idx_facts ⟨(i 0).val / 2000, hlt⟩
  refine ⟨⟨(i 0).val / 2000, hlt⟩, flush0_6 _, ?_⟩
  rw [mem_blk6]
  intro a
  match a with
  | ⟨0, _⟩ =>
    show win0_6.index ⟨(i 0).val / 2000, hlt⟩ 0 * 2000 ≤ (i 0).val ∧ (i 0).val < win0_6.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win0_6.index ⟨(i 0).val / 2000, hlt⟩ 1 * 40 ≤ (i 1).val ∧ (i 1).val < win0_6.index ⟨(i 0).val / 2000, hlt⟩ 1 * 40 + 40
    rw [e1]; omega

/-- The result array after the run. -/
theorem final6 (c : Dev nD) : (dats m 0 c).arrAt 6 cfg0.N = Gk m c :=
  (dats m 0 c).arrAt_eq_of_cover 6 (Gk m c) (fun t _ => flushed_eq m c t) cover6

/-- The run, read: the result array at `Gk`, the arguments unchanged. -/
theorem run : θ_run defs (onTc (τ := τ) (main (F := Ideal))) ⟨m, fun _ => 0, ρ⟩ fun r => ∀ c : Dev nD,
      r.2.mem ((c : Thread nD τ).loc main_v35) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (Value.run_blocks m ρ)

end Cert.KernelIdeal.Hand

end
-- ==== Proof.SpecRef.lean ====
/- The whole result array with the normalisation applied to the propagated row before the product, and its
   agreement with `Cert.Spec.outArr` when every node's factor is nonnegative and not +∞. -/
import proofs.«148928_j30683246363241_1_alg».proof.Proof.Spec

noncomputable section

namespace Cert.Spec

open Idealize.ShloMosaic Idealize.ShloMosaic.ValueIdx

/-- The [50000, 40] result over `outRowRef`. -/
def outArrRef (feat g2 : (⟨2, ![50000, 96]⟩ : Shape).Idx → EReal) (nrm : Fin 50000 → EReal) (wlin wsgc : W128x96)
    (wproj : W40x256) : (⟨2, ![50000, 40]⟩ : Shape).Idx → EReal :=
  fun i => outRowRef (fun l => feat (ix2 ⟨(i 0).val, idx2_lt0 i⟩ l)) (fun l => g2 (ix2 ⟨(i 0).val, idx2_lt0 i⟩ l))
    (nrm ⟨(i 0).val, idx2_lt0 i⟩) wlin wsgc wproj ⟨(i 1).val, idx2_lt1 i⟩

theorem outArrRef_ix2 (feat g2 : (⟨2, ![50000, 96]⟩ : Shape).Idx → EReal) (nrm : Fin 50000 → EReal) (wlin wsgc : W128x96)
    (wproj : W40x256) (r : Fin 50000) (q : Fin 40) :
    outArrRef feat g2 nrm wlin wsgc wproj (ix2 r q)
      = outRowRef (fun l => feat (ix2 r l)) (fun l => g2 (ix2 r l)) (nrm r) wlin wsgc wproj q := rfl

/-- With every node's factor nonnegative and below +∞ the two arrangements give one array. -/
theorem outArrRef_eq (feat g2 : (⟨2, ![50000, 96]⟩ : Shape).Idx → EReal) (nrm : Fin 50000 → EReal)
    (hn : ∀ r, 0 ≤ nrm r ∧ nrm r ≠ ⊤) (wlin wsgc : W128x96) (wproj : W40x256) :
    outArrRef feat g2 nrm wlin wsgc wproj = outArr feat g2 nrm wlin wsgc wproj :=
  funext fun i => outRowRef_eq _ _ (hn _).1 (hn _).2 wlin wsgc wproj _

/-- `outArr` of equal arguments. -/
theorem outArr_congr {feat feat' g2 g2' : (⟨2, ![50000, 96]⟩ : Shape).Idx → EReal} {nrm nrm' : Fin 50000 → EReal}
    {wlin wlin' wsgc wsgc' : W128x96} {wproj wproj' : W40x256} (hf : feat = feat') (hg : g2 = g2') (hn : nrm = nrm')
    (h1 : wlin = wlin') (h2 : wsgc = wsgc') (h3 : wproj = wproj') :
    outArr feat g2 nrm wlin wsgc wproj = outArr feat' g2' nrm' wlin' wsgc' wproj' := by
  subst hf hg hn h1 h2 h3; rfl

end Cert.Spec

end
-- ==== Proof.RefValue.lean ====
/- The reference's result, read entry by entry.
   Its last operation is the product of the joined hidden array with `W_projᵀ`; the hidden array's first 128
   columns are `features · W_linᵀ`, its last 128 are `(g₂ ⊙ n) · W_sgcᵀ`, where `g₂` is the reference's own
   twice-propagated array and `n` the normalisation factor broadcast along each row. So entry `(r, q)` is the
   specification's output row of node `r` with the factor applied BEFORE the product (`Cert.Spec.outRowRef`). -/
import proofs.«148928_j30683246363241_1_alg».proof.Proof.RefRead
import proofs.«148928_j30683246363241_1_alg».proof.Proof.SpecRef
import proofs.«148928_j30683246363241_1_alg».proof.Proof.LibLayout

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-- The reference's normalisation factor of node `r`. -/
abbrev nrm (x2 : (⟨S800000, .i32⟩ : BufTy).Contents (Elt Ideal)) (r : Fin 50000) : EReal :=
  val_main_v10 (F := Ideal) x2 (ix1 r)

/-- Column `k` of node `r`'s row of the joined hidden array. -/
theorem hidden_eq (x0 : (⟨S50000x96, .f32⟩ : BufTy).Contents (Elt Ideal)) (x1 x2 : (⟨S800000, .i32⟩ : BufTy).Contents (Elt Ideal))
    (x3 x4 : (⟨S128x96, .f32⟩ : BufTy).Contents (Elt Ideal)) (r : Fin 50000) (k : Fin 256) :
    val_main_v45 (F := Ideal) x0 x1 x2 x3 x4 (ix2 r k)
      = Cert.Spec.hiddenRowRef (fun l => x0 (ix2 r l)) (fun l => val_main_v39 (F := Ideal) x0 x1 x2 (ix2 r l)) (nrm x2 r) x4 x3 k := by
  unfold val_main_v45 Cert.Spec.hiddenRowRef
  by_cases hk : k.val < 128
  · rw [dif_pos hk, Cert.LibLayout.concat_cols_left _ _ _ r k hk, val_main_v1_apply]
    refine Finset.sum_congr rfl fun l _ => ?_
    have e1 : lidx_main_v1 (ix2 r ⟨k.val, hk⟩) l = ix2 r l := funext fun a => Fin.ext (by match a with | ⟨0, _⟩ => rfl | ⟨1, _⟩ => rfl)
    have e2 : ridx_main_v1 (ix2 r ⟨k.val, hk⟩) l = ix2 l ⟨k.val, hk⟩ := funext fun a => Fin.ext (by match a with | ⟨0, _⟩ => rfl | ⟨1, _⟩ => rfl)
    have e3 : idx_main_v0 (ix2 l ⟨k.val, hk⟩) = ix2 ⟨k.val, hk⟩ l := funext fun a => Fin.ext (by match a with | ⟨0, _⟩ => rfl | ⟨1, _⟩ => rfl)
    rw [e1, e2, val_main_v0_apply, e3]
  · have hk2 : k.val - 128 < 128 := by have := k.isLt; omega
    rw [dif_neg hk, Cert.LibLayout.concat_cols_right _ _ _ r k (Nat.le_of_not_lt hk) hk2, val_main_v44_apply]
    refine Finset.sum_congr rfl fun l _ => ?_
    have e1 : lidx_main_v44 (ix2 r ⟨k.val - 128, hk2⟩) l = ix2 r l := funext fun a => Fin.ext (by match a with | ⟨0, _⟩ => rfl | ⟨1, _⟩ => rfl)
    have e2 : ridx_main_v44 (ix2 r ⟨k.val - 128, hk2⟩) l = ix2 l ⟨k.val - 128, hk2⟩ := funext fun a => Fin.ext (by match a with | ⟨0, _⟩ => rfl | ⟨1, _⟩ => rfl)
    have e3 : idx_main_v43 (ix2 l ⟨k.val - 128, hk2⟩) = ix2 ⟨k.val - 128, hk2⟩ l := funext fun a => Fin.ext (by match a with | ⟨0, _⟩ => rfl | ⟨1, _⟩ => rfl)
    have e4 : idx_main_v41 (ix2 r l) = ix2 r (0 : Fin 1) := funext fun a => Fin.ext (by match a with | ⟨0, _⟩ => rfl | ⟨1, _⟩ => rfl)
    have e5 : idx_main_v40 (ix2 r (0 : Fin 1)) = ix1 r := funext fun a => Fin.ext (by match a with | ⟨0, _⟩ => rfl)
    rw [e1, e2, val_main_v43_apply, e3, val_main_v42_apply, val_main_v41_apply, e4, val_main_v40_apply, e5]
    rfl

/-- The reference's result array is the specification's, with the factor applied before the product. -/
theorem out_eq (x0 : (⟨S50000x96, .f32⟩ : BufTy).Contents (Elt Ideal)) (x1 x2 : (⟨S800000, .i32⟩ : BufTy).Contents (Elt Ideal))
    (x3 x4 : (⟨S128x96, .f32⟩ : BufTy).Contents (Elt Ideal)) (x5 : (⟨S40x256, .f32⟩ : BufTy).Contents (Elt Ideal)) :
    val_main_v47 (F := Ideal) x0 x1 x2 x3 x4 x5
      = Cert.Spec.outArrRef x0 (val_main_v39 (F := Ideal) x0 x1 x2) (nrm x2) x4 x3 x5 := by
  funext i
  obtain ⟨r, q, rfl⟩ : ∃ (r : Fin 50000) (q : Fin 40), i = ix2 r q := ⟨i 0, i 1, eq_ix2 i⟩
  rw [val_main_v47_apply, Cert.Spec.outArrRef_ix2]
  unfold Cert.Spec.outRowRef
  refine Finset.sum_congr rfl fun k _ => ?_
  have el : lidx_main_v47 (ix2 r q) k = ix2 r k := funext fun a => Fin.ext (by match a with | ⟨0, _⟩ => rfl | ⟨1, _⟩ => rfl)
  have er : ridx_main_v47 (ix2 r q) k = ix2 k q := funext fun a => Fin.ext (by match a with | ⟨0, _⟩ => rfl | ⟨1, _⟩ => rfl)
  have e46 : idx_main_v46 (ix2 k q) = ix2 q k := funext fun a => Fin.ext (by match a with | ⟨0, _⟩ => rfl | ⟨1, _⟩ => rfl)
  rw [el, er, val_main_v46_apply, e46, hidden_eq]

end Cert.ReferenceIdeal.RefValue

end
-- ==== Proof.Consts.lean ====
/- The float constants the two programs spell, as the extended reals their bit patterns denote:
   the zero the degree is compared with, the one that replaces an empty degree, and the exponent
   -1/2 of the symmetric normalisation. -/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

end Cert.Consts

end
-- ==== Proof.NormFacts.lean ====
/- The normalisation factor of a node is `s ^ (-1/2)` where `s` is the node's degree `d` when `d > 0` and `1`
   otherwise. Whatever `d` is, `s` is positive, so the factor is nonnegative and not +∞
   (`Cert.Algebra.pow_pos_negExp`). -/
import proofs.«148928_j30683246363241_1_alg».proof.Proof.Algebra
import proofs.«148928_j30683246363241_1_alg».proof.Proof.Consts

noncomputable section

namespace Cert.NormFacts

open Idealize.ShloMosaic

/-- The degree, or one where the degree is not positive, is positive. -/
theorem sel_pos (d : EReal) : 0 < Scalar.select (Ideal.cmp .ogt d 0) d 1 := by
  unfold Scalar.select Ideal.cmp
  by_cases h : (0 : EReal) < d
  · simp [h]
  · simp [h]

/-- The factor, over the printed constants: nonnegative and below +∞. -/
theorem factor_bounds (d : EReal) :
    0 ≤ Ideal.pow (Scalar.select (Ideal.cmp .ogt d (Ideal.ofBits .f32 0x00000000#32)) d (Ideal.ofBits .f32 0x3F800000#32))
          (Ideal.ofBits .f32 0xBF000000#32)
    ∧ Ideal.pow (Scalar.select (Ideal.cmp .ogt d (Ideal.ofBits .f32 0x00000000#32)) d (Ideal.ofBits .f32 0x3F800000#32))
          (Ideal.ofBits .f32 0xBF000000#32) ≠ ⊤ := by
  rw [Cert.Consts.ofBits_zero, Cert.Consts.ofBits_one, Cert.Consts.ofBits_neg_half]
  exact Cert.Algebra.pow_pos_negExp _ (sel_pos d) _ (by norm_num)

end Cert.NormFacts

end
-- ==== Proof.HostK.lean ====
/- What the kernel program's host operations leave for the region, as functions of the three arguments
   they read (`x0` the features, `x1` the edge sources, `x2` the edge targets):
     kdeg  the number of edges into each node (a segment sum of ones over the targets),
     knrm  (kdeg > 0 ? kdeg : 1) ^ (-1/2),           kcol  knrm as a column,
     kh0   x0 ⊙ kcol,                                 kg1   segsum(kh0[src], dst),
     kh1   kg1 ⊙ (kcol ⊙ kcol),                       kg2   segsum(kh1[src], dst),
   where `src` wraps a negative index by the node count (`ksrc`) and `segsum(X[src], dst)` is the gather of the
   rows of `X` at the sources accumulated at the targets into zeros (`kseg`).
   The region finds `kcol` in the normalisation window's array and `kg2` in the propagated window's.
   Everything here is stated for any float family: it is only the order of the operations that matters. -/
import proofs.«148928_j30683246363241_1_alg».proof.Proof.Gen.KernelIdeal.Frame
import Idealize.ShloMosaic.Lib.StableHlo.Run
import Idealize.ShloMosaic.Lib.Tactic

noncomputable section

namespace Cert.KernelIdeal.HostK

open Idealize.ShloMosaic Idealize.ShloMosaic.TcCoe Idealize.SL.Sem
open Cert.KernelIdeal Cert.KernelIdeal.Gen

variable {F : FTy → Type} [FloatOps F]

/-- The degree: ones accumulated at the edge targets. -/
def kdeg (x2 : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 x2)
    (broadcastInDim S800000 ![] bcast_S_S800000 (constant (F := F) S_ .f32 0x3F800000#32))

/-- The normalisation factor. -/
def knrm (x2 : (⟨S800000, .i32⟩ : BufTy).Contents (Elt F)) : (⟨S50000, .f32⟩ : BufTy).Contents (Elt F) :=
  Host.powf
    (select (cmpf (F := F) .ogt (kdeg (F := F) x2) (broadcastInDim S50000 ![] bcast_S_S50000 (constant (F := F) S_ .f32 0x00000000#32)))
      (kdeg (F := F) x2) (broadcastInDim S50000 ![] bcast_S_S50000 (id (constant (F := F) S_ .f32 0x3F800000#32))))
    (broadcastInDim S50000 ![] bcast_S_S50000 (constant (F := F) S_ .f32 0xBF000000#32))

/-- The factor as a column. -/
def kcol (x2 : (⟨S800000, .i32⟩ : BufTy).Contents (Elt F)) : (⟨S50000x1, .f32⟩ : BufTy).Contents (Elt F) :=
  broadcastInDim S50000x1 ![0] bcast_S50000_S50000x1_0 (knrm (F := F) x2)

/-- The features scaled by the factor. -/
def kh0 (x0 : (⟨S50000x96, .f32⟩ : BufTy).Contents (Elt F)) (x2 : (⟨S800000, .i32⟩ : BufTy).Contents (Elt F)) : (⟨S50000x96, .f32⟩ : BufTy).Contents (Elt F) :=
  mulf x0 (broadcastInDim S50000x96 ![0, 1] bcast_S50000x1_S50000x96_0_1 (kcol (F := F) x2))

/-- The edge sources, a negative index wrapped by the node count, as a column of indices. -/
def ksrc (x1 : (⟨S800000, .i32⟩ : BufTy).Contents (Elt F)) : (⟨S800000x1, .i32⟩ : BufTy).Contents (Elt F) :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 50000#32))) x1)

/-- The edge targets as a column of indices. -/
def kdst (x2 : (⟨S800000, .i32⟩ : BufTy).Contents (Elt F)) : (⟨S800000x1, .i32⟩ : BufTy).Contents (Elt F) :=
  broadcastInDim S800000x1 ![0] bcast_S800000_S800000x1_0 x2

/-- One propagation: rows of `X` gathered at the sources, accumulated at the targets into zeros. -/
def kseg (X : (⟨S50000x96, .f32⟩ : BufTy).Contents (Elt F)) (x1 x2 : (⟨S800000, .i32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant (F := F) S_ .f32 0x00000000#32))
    (kdst (F := F) x2)
    (Host.gather gather_S50000x96_S800000x1_S800000x96_1_0_n_n_0_1_196 X (ksrc (F := F) x1))

def kg1 (x0 : (⟨S50000x96, .f32⟩ : BufTy).Contents (Elt F)) (x1 x2 : (⟨S800000, .i32⟩ : BufTy).Contents (Elt F)) : (⟨S50000x96, .f32⟩ : BufTy).Contents (Elt F) :=
  kseg (kh0 x0 x2) x1 x2

def kh1 (x0 : (⟨S50000x96, .f32⟩ : BufTy).Contents (Elt F)) (x1 x2 : (⟨S800000, .i32⟩ : BufTy).Contents (Elt F)) : (⟨S50000x96, .f32⟩ : BufTy).Contents (Elt F) :=
  mulf (kg1 x0 x1 x2)
    (broadcastInDim S50000x96 ![0, 1] bcast_S50000x1_S50000x96_0_1 (mulf (kcol (F := F) x2) (kcol (F := F) x2)))

def kg2 (x0 : (⟨S50000x96, .f32⟩ : BufTy).Contents (Elt F)) (x1 x2 : (⟨S800000, .i32⟩ : BufTy).Contents (Elt F)) : (⟨S50000x96, .f32⟩ : BufTy).Contents (Elt F) :=
  kseg (kh1 x0 x1 x2) x1 x2

/-- The three operations of the called `where`, on the buffers themselves. -/
theorem where_ops : (hostOps0_1 : List (HloOp τ sig (Elt F))) =
    [ StableHlo.unary main_cst_2 main_call0_v0 (id : (⟨S_, .f32⟩ : BufTy).Contents (Elt F) → (⟨S_, .f32⟩ : BufTy).Contents (Elt F)),
      StableHlo.unary main_call0_v0 main_call0_v1 (broadcastInDim S50000 ![] bcast_S_S50000 : (⟨S_, .f32⟩ : BufTy).Contents (Elt F) → (⟨S50000, .f32⟩ : BufTy).Contents (Elt F)),
      StableHlo.ternary main_v5 main_v3 main_call0_v1 main_v6 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ] := rfl

variable (m : (ℓ : Loc nD τ sig) → Buf (Elt F) ℓ)

/-- The normalisation window's array. -/
theorem V_col (c : Dev nD) (x2 : (⟨S800000, .i32⟩ : BufTy).Contents (Elt F)) (h2 : m (c, Proc.devRef .tc main_arg2) = x2) :
    (V m c main_v9 : (⟨S50000x1, .f32⟩ : BufTy).Contents (Elt F)) = kcol (F := F) x2 := by
  subst h2
  dsimp only [V]
  rw [where_ops]
  simp only [hostOps0, hostOps0_2, List.flatten_cons, List.flatten_nil, List.append_nil, List.cons_append, List.nil_append]
  after_results
  unfold kcol knrm kdeg
  rfl

set_option maxHeartbeats 4000000 in
/-- The propagated window's array. -/
theorem V_prop (c : Dev nD) (x0 : (⟨S50000x96, .f32⟩ : BufTy).Contents (Elt F)) (x1 x2 : (⟨S800000, .i32⟩ : BufTy).Contents (Elt F))
    (h0 : m (c, Proc.devRef .tc main_arg0) = x0) (h1 : m (c, Proc.devRef .tc main_arg1) = x1)
    (h2 : m (c, Proc.devRef .tc main_arg2) = x2) :
    (V m c main_v34 : (⟨S50000x96, .f32⟩ : BufTy).Contents (Elt F)) = kg2 (F := F) x0 x1 x2 := by
  subst h0 h1 h2
  dsimp only [V]
  rw [where_ops]
  simp only [hostOps0, hostOps0_2, List.flatten_cons, List.flatten_nil, List.append_nil, List.cons_append, List.nil_append]
  after_results
  unfold kg2 kh1 kg1 kseg kh0 kcol knrm kdeg ksrc kdst
  rfl

end Cert.KernelIdeal.HostK

end
-- ==== Proof.Bridge.lean ====
/- The arrays the kernel's region finds, against the reference's stages.
   Before the region the kernel's host operations compute, from the same arguments and by the same operations as the
   reference: the degree (a segment sum of ones over `dst`), the factor `n = (deg > 0 ? deg : 1) ^ (-1/2)`, the first
   propagation `g₁ = segsum((features ⊙ n)[src], dst)` and the second `g₂ = segsum(h[src], dst)`. The one difference is
   `h`: the kernel's program forms `g₁ ⊙ (n ⊙ n)`, the reference `(g₁ ⊙ n) ⊙ n` — equal entry by entry by associativity
   of the product of extended reals, with no condition. So the region finds the reference's `g₂` and the reference's
   `n` (as a column), and `n` is nonnegative and not +∞ (`Cert.NormFacts.factor_bounds`). -/
import proofs.«148928_j30683246363241_1_alg».proof.Proof.KernelValue
import proofs.«148928_j30683246363241_1_alg».proof.Proof.RefValue
import proofs.«148928_j30683246363241_1_alg».proof.Proof.NormFacts
import proofs.«148928_j30683246363241_1_alg».proof.Proof.HostK

noncomputable section

namespace Cert.Bridge

open Idealize.ShloMosaic Idealize.ShloMosaic.TcCoe Idealize.SL.Sem Idealize.ShloMosaic.ValueIdx
open Cert.ReferenceIdeal Cert.ReferenceIdeal.Gen Cert.ReferenceIdeal.Read

/-! ## The kernel program's host stages are the reference's, operation by operation (any float family) -/

section Stages

variable {F : FTy → Type} [FloatOps F]

/-- `g₁ ⊙ (n ⊙ n)`: the second propagation's input in the kernel program's arrangement, over the reference's
    stages for `g₁` and for the factor's column. -/
def scaledK (x0 : (⟨S50000x96, .f32⟩ : BufTy).Contents (Elt F)) (x1 x2 : (⟨S800000, .i32⟩ : BufTy).Contents (Elt F)) : (⟨S50000x96, .f32⟩ : BufTy).Contents (Elt F) :=
  mulf (val_main_v23 (F := F) x0 x1 x2)
    (broadcastInDim S50000x96 ![0, 1] bcast_S50000x1_S50000x96_0_1
      (mulf (val_main_v11 (F := F) x2) (val_main_v11 (F := F) x2)))

/-- The second propagation over `scaledK`. -/
def propagatedK (x0 : (⟨S50000x96, .f32⟩ : BufTy).Contents (Elt F)) (x1 x2 : (⟨S800000, .i32⟩ : BufTy).Contents (Elt F)) : (⟨S50000x96, .f32⟩ : BufTy).Contents (Elt F) :=
  Host.scatterAdd scatter_S50000x96_S800000x1_S800000x96_1_0_0_1 (val_main_v37 (F := F)) (val_main_v38 (F := F) x2)
    (Host.gather gather_S50000x96_S800000x1_S800000x96_1_0_n_n_0_1_196 (scaledK x0 x1 x2) (val_main_v35 (F := F) x1))

theorem kcol_eq (x2 : (⟨S800000, .i32⟩ : BufTy).Contents (Elt F)) : Cert.KernelIdeal.HostK.kcol (F := F) x2 = val_main_v11 (F := F) x2 := rfl

theorem ksrc_eq (x1 : (⟨S800000, .i32⟩ : BufTy).Contents (Elt F)) : Cert.KernelIdeal.HostK.ksrc (F := F) x1 = val_main_v19 (F := F) x1 := rfl

theorem ksrc_eq' (x1 : (⟨S800000, .i32⟩ : BufTy).Contents (Elt F)) : Cert.KernelIdeal.HostK.ksrc (F := F) x1 = val_main_v35 (F := F) x1 := rfl

theorem kdst_eq (x2 : (⟨S800000, .i32⟩ : BufTy).Contents (Elt F)) : Cert.KernelIdeal.HostK.kdst (F := F) x2 = val_main_v22 (F := F) x2 := rfl

theorem kdst_eq' (x2 : (⟨S800000, .i32⟩ : BufTy).Contents (Elt F)) : Cert.KernelIdeal.HostK.kdst (F := F) x2 = val_main_v38 (F := F) x2 := rfl

theorem kh0_eq (x0 : (⟨S50000x96, .f32⟩ : BufTy).Contents (Elt F)) (x2 : (⟨S800000, .i32⟩ : BufTy).Contents (Elt F)) :
    Cert.KernelIdeal.HostK.kh0 (F := F) x0 x2 = val_main_v13 (F := F) x0 x2 := by
  unfold Cert.KernelIdeal.HostK.kh0 val_main_v13 val_main_v12
  rw [kcol_eq]

/-- One propagation, over the reference's index columns of the first hop. -/
theorem kseg_eq (X : (⟨S50000x96, .f32⟩ : BufTy).Contents (Elt F)) (x1 x2 : (⟨S800000, .i32⟩ : BufTy).Contents (Elt F)) :
    Cert.KernelIdeal.HostK.kseg (F := F) X x1 x2
      = Host.scatterAdd scatter_S50000x96_S800000x1_S800000x96_1_0_0_1 (val_main_v21 (F := F)) (val_main_v22 (F := F) x2)
          (Host.gather gather_S50000x96_S800000x1_S800000x96_1_0_n_n_0_1_196 X (val_main_v19 (F := F) x1)) := by
  unfold Cert.KernelIdeal.HostK.kseg
  rw [ksrc_eq, kdst_eq]
  rfl

/-- … and of the second hop. -/
theorem kseg_eq' (X : (⟨S50000x96, .f32⟩ : BufTy).Contents (Elt F)) (x1 x2 : (⟨S800000, .i32⟩ : BufTy).Contents (Elt F)) :
    Cert.KernelIdeal.HostK.kseg (F := F) X x1 x2
      = Host.scatterAdd scatter_S50000x96_S800000x1_S800000x96_1_0_0_1 (val_main_v37 (F := F)) (val_main_v38 (F := F) x2)
          (Host.gather gather_S50000x96_S800000x1_S800000x96_1_0_n_n_0_1_196 X (val_main_v35 (F := F) x1)) := by
  unfold Cert.KernelIdeal.HostK.kseg
  rw [ksrc_eq', kdst_eq']
  rfl

theorem kg1_eq (x0 : (⟨S50000x96, .f32⟩ : BufTy).Contents (Elt F)) (x1 x2 : (⟨S800000, .i32⟩ : BufTy).Contents (Elt F)) : Cert.KernelIdeal.HostK.kg1 (F := F) x0 x1 x2 = val_main_v23 (F := F) x0 x1 x2 := by
  unfold Cert.KernelIdeal.HostK.kg1 val_main_v23 val_main_v20
  rw [kseg_eq, kh0_eq]

theorem kh1_eq (x0 : (⟨S50000x96, .f32⟩ : BufTy).Contents (Elt F)) (x1 x2 : (⟨S800000, .i32⟩ : BufTy).Contents (Elt F)) : Cert.KernelIdeal.HostK.kh1 (F := F) x0 x1 x2 = scaledK x0 x1 x2 := by
  unfold Cert.KernelIdeal.HostK.kh1 scaledK
  rw [kg1_eq, kcol_eq]

theorem kg2_eq (x0 : (⟨S50000x96, .f32⟩ : BufTy).Contents (Elt F)) (x1 x2 : (⟨S800000, .i32⟩ : BufTy).Contents (Elt F)) : Cert.KernelIdeal.HostK.kg2 (F := F) x0 x1 x2 = propagatedK x0 x1 x2 := by
  unfold Cert.KernelIdeal.HostK.kg2 propagatedK
  rw [kseg_eq', kh1_eq]

end Stages

/-! ## On the extended reals -/

/-- The kernel program's arrangement of the second propagation's input is the reference's `(g₁ ⊙ n) ⊙ n`. -/
theorem scaledK_eq (x0 : (⟨S50000x96, .f32⟩ : BufTy).Contents (Elt Ideal)) (x1 x2 : (⟨S800000, .i32⟩ : BufTy).Contents (Elt Ideal)) : scaledK (F := Ideal) x0 x1 x2 = val_main_v29 (F := Ideal) x0 x1 x2 := by
  funext i
  obtain ⟨r, l, rfl⟩ : ∃ (r : Fin 50000) (l : Fin 96), i = ix2 r l := ⟨i 0, i 1, eq_ix2 i⟩
  have e25 : idx_main_v25 (ix2 r l) = ix2 r (0 : Fin 1) := funext fun a => Fin.ext (by match a with | ⟨0, _⟩ => rfl | ⟨1, _⟩ => rfl)
  have e28 : idx_main_v28 (ix2 r l) = ix2 r (0 : Fin 1) := funext fun a => Fin.ext (by match a with | ⟨0, _⟩ => rfl | ⟨1, _⟩ => rfl)
  have e24 : idx_main_v24 (ix2 r (0 : Fin 1)) = ix1 r := funext fun a => Fin.ext (by match a with | ⟨0, _⟩ => rfl)
  have e27 : idx_main_v27 (ix2 r (0 : Fin 1)) = ix1 r := funext fun a => Fin.ext (by match a with | ⟨0, _⟩ => rfl)
  have e11 : idx_main_v11 (ix2 r (0 : Fin 1)) = ix1 r := funext fun a => Fin.ext (by match a with | ⟨0, _⟩ => rfl)
  unfold scaledK
  rw [mulf_apply, Cert.LibLayout.bcastInDim_col_apply _ _ r l (by decide), mulf_apply, val_main_v11_apply, e11,
    val_main_v29_apply, val_main_v26_apply, val_main_v28_apply, e28, val_main_v27_apply, e27, val_main_v25_apply, e25,
    val_main_v24_apply, e24]
  exact (mul_assoc _ _ _).symm

/-- So the second propagation over it is the reference's. -/
theorem propagatedK_eq (x0 : (⟨S50000x96, .f32⟩ : BufTy).Contents (Elt Ideal)) (x1 x2 : (⟨S800000, .i32⟩ : BufTy).Contents (Elt Ideal)) : propagatedK (F := Ideal) x0 x1 x2 = val_main_v39 (F := Ideal) x0 x1 x2 := by
  unfold propagatedK val_main_v39 val_main_v36
  rw [scaledK_eq]

/-- The factor's column read at a node. -/
theorem col_apply (x2 : (⟨S800000, .i32⟩ : BufTy).Contents (Elt Ideal)) (r : Fin 50000) :
    val_main_v11 (F := Ideal) x2 (ix2 r (0 : Fin 1)) = Cert.ReferenceIdeal.RefValue.nrm x2 r := by
  have e11 : idx_main_v11 (ix2 r (0 : Fin 1)) = ix1 r := funext fun a => Fin.ext (by match a with | ⟨0, _⟩ => rfl)
  rw [val_main_v11_apply, e11]

/-- Every node's factor is nonnegative and not +∞. -/
theorem nrm_bounds (x2 : (⟨S800000, .i32⟩ : BufTy).Contents (Elt Ideal)) (r : Fin 50000) :
    0 ≤ Cert.ReferenceIdeal.RefValue.nrm x2 r ∧ Cert.ReferenceIdeal.RefValue.nrm x2 r ≠ ⊤ := by
  show 0 ≤ val_main_v10 (F := Ideal) x2 (ix1 r) ∧ val_main_v10 (F := Ideal) x2 (ix1 r) ≠ ⊤
  rw [val_main_v10_apply, val_main_v8_apply, val_main_v7_apply, val_main_v6_apply, val_main_cst_1_apply,
    val_main_call0_v1_apply, val_main_call0_v0_apply, val_main_cst_2_apply, val_main_v9_apply, val_main_cst_3_apply]
  exact Cert.NormFacts.factor_bounds (val_main_v5 (F := Ideal) x2 (ix1 r))

/-! ## What the kernel's region finds -/

section Kernel

variable (m : (ℓ : Loc Cert.KernelIdeal.nD Cert.KernelIdeal.τ Cert.KernelIdeal.sig) → Buf (Elt Ideal) ℓ)

/-- The factor's column the region finds is the reference's, of the same `dst`. -/
theorem V_col (c : Dev Cert.KernelIdeal.nD) :
    (Cert.KernelIdeal.Gen.V m c Cert.KernelIdeal.main_v9 : Cert.KernelIdeal.S50000x1.Idx → EReal) = val_main_v11 (F := Ideal) (m (c, Proc.devRef .tc Cert.KernelIdeal.main_arg2)) :=
  (Cert.KernelIdeal.HostK.V_col m c _ rfl).trans (kcol_eq _)

/-- The propagated array the region finds is the reference's second propagation of the same arguments. -/
theorem V_propagated (c : Dev Cert.KernelIdeal.nD) :
    (Cert.KernelIdeal.Gen.V m c Cert.KernelIdeal.main_v34 : Cert.KernelIdeal.S50000x96.Idx → EReal) = val_main_v39 (F := Ideal) (m (c, Proc.devRef .tc Cert.KernelIdeal.main_arg0)) (m (c, Proc.devRef .tc Cert.KernelIdeal.main_arg1)) (m (c, Proc.devRef .tc Cert.KernelIdeal.main_arg2)) :=
  ((Cert.KernelIdeal.HostK.V_prop m c _ _ _ rfl rfl rfl).trans (kg2_eq _ _ _)).trans (propagatedK_eq _ _ _)

/-- The kernel's result array over the launch contents and the reference's stages. -/
theorem Gk_eq (c : Dev Cert.KernelIdeal.nD) :
    Cert.KernelIdeal.Hand.Gk m c
      = Cert.Spec.outArr (m ((c.tc : Thread Cert.KernelIdeal.nD Cert.KernelIdeal.τ).loc Cert.KernelIdeal.main_arg0)) (val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (Cert.ReferenceIdeal.RefValue.nrm (m ((c.tc : Thread Cert.KernelIdeal.nD Cert.KernelIdeal.τ).loc Cert.KernelIdeal.main_arg2))) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) :=
  Cert.Spec.outArr_congr (Cert.KernelIdeal.Gen.V_main_arg0 m c) (V_propagated m c)
    (funext fun r => (congrFun (V_col m c) (ix2 r (0 : Fin 1))).trans (col_apply _ r))
    (Cert.KernelIdeal.Gen.V_main_arg4 m c) (Cert.KernelIdeal.Gen.V_main_arg3 m c) (Cert.KernelIdeal.Gen.V_main_arg5 m c)

/-- The reference's last stage, of the kernel's launch contents, is the kernel's result array. -/
theorem result_eq (c : Dev Cert.KernelIdeal.nD) :
    val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = Cert.KernelIdeal.Hand.Gk m c := by
  rw [Cert.ReferenceIdeal.RefValue.out_eq, Cert.Spec.outArrRef_eq _ _ _ (nrm_bounds _), Gk_eq]

end Kernel

end Cert.Bridge

end
-- ==== Proof.lean ====
/- A two-hop simplified graph convolution followed by a linear classifier, on 50000 nodes with 96 features:
     deg  = number of edges into each node,           n = (deg > 0 ? deg : 1) ^ (-1/2),
     g₁   = segsum((features ⊙ n)[src], dst),         g₂ = segsum((g₁ ⊙ n ⊙ n)[src], dst),
     out  = [features · W_linᵀ | (g₂ ⊙ n) · W_sgcᵀ] · W_projᵀ.
   The kernel program computes deg, n, g₁, g₂ by host operations (spelling g₁ ⊙ (n ⊙ n)) and the three matrix
   products in one kernel over 25 blocks of 2000 nodes, multiplying by n AFTER the product with W_sgcᵀ; the
   reference spells (g₁ ⊙ n) ⊙ n and multiplies by n BEFORE that product. On the extended reals:
     * (g₁ · n) · n = g₁ · (n · n) always (associativity);
     * (∑ₗ g₂[i,l] · W[k,l]) · n[i] = ∑ₗ (g₂[i,l] · n[i]) · W[k,l] because n[i] is nonnegative and not +∞
       (a positive base to the exponent -1/2), and such a factor distributes over any finite sum
       (Proof/Algebra.lean, Proof/NormFacts.lean); no finiteness of the inputs is used;
     * narrowing to bf16 is the identity, a matrix product into a zero accumulator is the plain sum, and the
       25 row blocks tile the result (Proof/KernelPay.lean, Proof/KernelValue.lean).
   The reference's result entry by entry is Proof/RefValue.lean; that the arrays the kernel's region finds are
   the reference's g₂ and n is Proof/Bridge.lean. The three frames are the generated ones (the reference's is
   its run with the result dropped), and the idealisation rewrote nothing. -/
import proofs.«148928_j30683246363241_1_alg».proof.Defs
import proofs.«148928_j30683246363241_1_alg».proof.Proof.Gen.Kernel
import proofs.«148928_j30683246363241_1_alg».proof.Proof.Gen.Kernel.Skeleton
import proofs.«148928_j30683246363241_1_alg».proof.Proof.Gen.Kernel.Launch
import proofs.«148928_j30683246363241_1_alg».proof.Proof.Gen.Kernel.Points
import proofs.«148928_j30683246363241_1_alg».proof.Proof.Gen.Kernel.Frame
import proofs.«148928_j30683246363241_1_alg».proof.Proof.Gen.KernelIdeal
import proofs.«148928_j30683246363241_1_alg».proof.Proof.Gen.KernelIdeal.Skeleton
import proofs.«148928_j30683246363241_1_alg».proof.Proof.Gen.KernelIdeal.Launch
import proofs.«148928_j30683246363241_1_alg».proof.Proof.Gen.KernelIdeal.Points
import proofs.«148928_j30683246363241_1_alg».proof.Proof.Gen.KernelIdeal.Frame
import proofs.«148928_j30683246363241_1_alg».proof.Proof.Gen.ReferenceIdeal
import proofs.«148928_j30683246363241_1_alg».proof.Proof.Gen.Pre_finite_inputs
import proofs.«148928_j30683246363241_1_alg».proof.Proof.Gen.KernelIdeal.Value
import proofs.«148928_j30683246363241_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification's output of the arguments: the kernel's by its
    run over the 25 row blocks, the reference's by its run read entry by entry, the two arrangements of the
    normalisation agreeing because the factor is nonnegative and not +∞. -/
theorem algebraic : Cert.algebraic_KernelIdeal_ReferenceIdeal := by
  intro m ρ m' ρ' _ hagree
  refine ⟨fun c => Cert.KernelIdeal.Hand.Gk m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1,
    (hagree c).2.2.2.2.1, (hagree c).2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
